-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S128x1024 : Shape := ⟨2, ![128, 1024]⟩

abbrev nBuf : Space → Nat
  | .hbm => 39
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S8192x1024, .bf16⟩
  | .hbm, ⟨20, _⟩ => ⟨S8192x1024, .bf16⟩
  | .hbm, ⟨21, _⟩ => ⟨S1024x1024, .bf16⟩
  | .hbm, ⟨22, _⟩ => ⟨S1024x1024, .bf16⟩
  | .hbm, ⟨23, _⟩ => ⟨S1024x1024, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1024x1024, .bf16⟩
  | .hbm, ⟨28, _⟩ => ⟨S1024x1024, .bf16⟩
  | .hbm, ⟨29, _⟩ => ⟨S1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .f32⟩
  | .local _ .vmem, ⟨5, _⟩ => ⟨S128x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bitsLt_bf16_f32 : FTy.bits .bf16 < FTy.bits .f32
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .bf16 = 32 ∨ (Rect.block (s := S8192x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .bf16 = 32 ∨ (Rect.block (s := S8192x1024) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x1024.size a ≤ S8192x1024.size a
  hwx0_15 : ∀ i : grid0.Coords, EltTy.bits .f32 = 32 ∨ (Rect.block (s := S8192x1024) S128x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x1024.size a ≤ S8192x1024.size a
  hwx0_16 : ∀ i : grid0.Coords, EltTy.bits .f32 = 32 ∨ (Rect.block (s := S8192x1024) S128x1024.size (cc0_transform_16 i) (hinb0_16 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_v0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v17) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v18_0) S128x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v18_1) S128x1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S1024x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S1024x1024, .f32⟩
  | .hbm, ⟨63, _⟩ => ⟨S8192x1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192x1024, .f32⟩
  | .hbm, ⟨75, _⟩ => ⟨S8192x1024, .f32⟩
  | .hbm, ⟨76, _⟩ => ⟨S1024x1024, .f32⟩
  | .hbm, ⟨77, _⟩ => ⟨S8192x1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S1024x1024, .f32⟩
  | .hbm, ⟨82, _⟩ => ⟨S8192x1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_3 : Ref sig .tc := ⟨.hbm, 70, rfl⟩
abbrev main_v47 : Ref sig .tc := ⟨.hbm, 71, rfl⟩
abbrev main_v48 : Ref sig .tc := ⟨.hbm, 72, rfl⟩
abbrev main_cst_4 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.CellSpec.lean ====
/-
  One step of an LSTM cell as ONE function of its arrays, element by element, on the extended reals.

  For a batch of `R` rows and 1024 hidden units, a gate's pre-activation at row `p`, unit `q` is
      ∑ₖ x[p,k]·W[q,k]  +  ∑ₖ h[p,k]·U[q,k]  +  β[q]
  (`W`, `U` the gate's input and recurrent weight matrices, each contracted along its SECOND axis, that is multiplied
  as its transpose; `β` the gate's bias). With `σ` the logistic function the step is
      c' = σ(a_f)·c + σ(a_i)·tanh(a_g)            h' = σ(a_o)·tanh(c').
  Two arrangements of the same pre-activation occur: one bias vector added after both products (`Gate.act`), and each
  product carrying its own bias, `(x·Wᵀ + b) + (h·Uᵀ + d)` (`actSplit`). They agree for `β = b + d` because addition
  of extended reals is commutative and associative (`actSplit_eq`): no finiteness is needed, the sums are never
  distributed over. A pre-activation at row `p` reads only row `p` of `x` and `h` (`Gate.act_congr`), which is what
  lets a block of rows be computed by itself.
  Last, the logistic function written out with the word of `1.0`, as a host program spells it, is the logistic
  function (`div_one_word`).
-/
import Idealize.ShloMosaic.PureOps.Ideal
import Idealize.ShloMosaic.PureOps.Ideal.Laws
import Idealize.ShloMosaic.Lib.ValueIdx

noncomputable section

open scoped BigOperators

namespace Cert.LstmCell

open Idealize.ShloMosaic Idealize.ShloMosaic.ValueIdx

/-- Row `p` of `a` against row `q` of `M`: `∑ₖ a[p,k]·M[q,k]`, an entry of `a·Mᵀ`. -/
def rowDot {R : Nat} (a : (⟨2, ![R, 1024]⟩ : Shape).Idx → EReal) (M : (⟨2, ![1024, 1024]⟩ : Shape).Idx → EReal)
    (p : Fin R) (q : Fin 1024) : EReal :=
  ∑ k : Fin 1024, a (ix2 p k) * M (ix2 q k)

/-- `rowDot` at row `p` depends on `a` through its row `p` only. -/
theorem rowDot_congr {R R' : Nat} (a : (⟨2, ![R, 1024]⟩ : Shape).Idx → EReal) (a' : (⟨2, ![R', 1024]⟩ : Shape).Idx → EReal)
    (M : (⟨2, ![1024, 1024]⟩ : Shape).Idx → EReal) (p : Fin R) (p' : Fin R') (q : Fin 1024)
    (ha : ∀ k : Fin 1024, a (ix2 p k) = a' (ix2 p' k)) : rowDot a M p q = rowDot a' M p' q :=
  Finset.sum_congr rfl fun k _ => by rw [ha k]

/-- One gate's parameters: input weights, recurrent weights, bias. -/
structure Gate where
  W : (⟨2, ![1024, 1024]⟩ : Shape).Idx → EReal
  U : (⟨2, ![1024, 1024]⟩ : Shape).Idx → EReal
  β : Fin 1024 → EReal

/-- The gate with weights `W`, `U` whose bias is the sum of two bias vectors. -/
abbrev Gate.ofParts (W U : (⟨2, ![1024, 1024]⟩ : Shape).Idx → EReal) (b d : (⟨1, ![1024]⟩ : Shape).Idx → EReal) : Gate :=
  ⟨W, U, fun q => b (ix1 q) + d (ix1 q)⟩

/-- The gate's pre-activation at row `p`, unit `q`. -/
def Gate.act {R : Nat} (g : Gate) (x h : (⟨2, ![R, 1024]⟩ : Shape).Idx → EReal) (p : Fin R) (q : Fin 1024) : EReal :=
  rowDot x g.W p q + rowDot h g.U p q + g.β q

/-- The pre-activation of row `p` reads row `p` of `x` and of `h` and nothing else of them. -/
theorem Gate.act_congr {R R' : Nat} (g : Gate) (x h : (⟨2, ![R, 1024]⟩ : Shape).Idx → EReal)
    (x' h' : (⟨2, ![R', 1024]⟩ : Shape).Idx → EReal) (p : Fin R) (p' : Fin R') (q : Fin 1024)
    (hx : ∀ k : Fin 1024, x (ix2 p k) = x' (ix2 p' k)) (hh : ∀ k : Fin 1024, h (ix2 p k) = h' (ix2 p' k)) :
    g.act x h p q = g.act x' h' p' q := by
  unfold Gate.act
  rw [rowDot_congr x x' g.W p p' q hx, rowDot_congr h h' g.U p p' q hh]

/-- The same pre-activation with each product carrying its own bias: `(x·Wᵀ + b) + (h·Uᵀ + d)`. -/
def actSplit {R : Nat} (x h : (⟨2, ![R, 1024]⟩ : Shape).Idx → EReal) (W U : (⟨2, ![1024, 1024]⟩ : Shape).Idx → EReal)
    (b d : Fin 1024 → EReal) (p : Fin R) (q : Fin 1024) : EReal :=
  (rowDot x W p q + b q) + (rowDot h U p q + d q)

/-- Both arrangements are one sum of four terms: `(A + b) + (B + d) = (A + B) + (b + d)` in a commutative monoid. -/
theorem actSplit_eq {R : Nat} (x h : (⟨2, ![R, 1024]⟩ : Shape).Idx → EReal) (W U : (⟨2, ![1024, 1024]⟩ : Shape).Idx → EReal)
    (b d : Fin 1024 → EReal) (p : Fin R) (q : Fin 1024) :
    actSplit x h W U b d p q = (Gate.mk W U fun q => b q + d q).act x h p q :=
  add_add_add_comm _ _ _ _

/-- The new cell state from the input, forget and candidate pre-activations and the old state. -/
def newCell (ai af ag c : EReal) : EReal := Ideal.logistic af * c + Ideal.logistic ai * Ideal.tanh ag

/-- The new hidden state from the four pre-activations and the old cell state. -/
def newHidden (ai af ag ao c : EReal) : EReal := Ideal.logistic ao * Ideal.tanh (newCell ai af ag c)

/-- The new cell state at row `p`, unit `q`. -/
def cellAt {R : Nat} (x h c : (⟨2, ![R, 1024]⟩ : Shape).Idx → EReal) (gi gf gg : Gate) (p : Fin R) (q : Fin 1024) : EReal :=
  newCell (gi.act x h p q) (gf.act x h p q) (gg.act x h p q) (c (ix2 p q))

/-- The new hidden state at row `p`, unit `q`. -/
def hiddenAt {R : Nat} (x h c : (⟨2, ![R, 1024]⟩ : Shape).Idx → EReal) (gi gf gg go : Gate) (p : Fin R) (q : Fin 1024) : EReal :=
  newHidden (gi.act x h p q) (gf.act x h p q) (gg.act x h p q) (go.act x h p q) (c (ix2 p q))

/-- Row `p` of the new cell state is a function of row `p` of `x`, `h` and `c` (and of the gates). -/
theorem cellAt_congr {R R' : Nat} (x h c : (⟨2, ![R, 1024]⟩ : Shape).Idx → EReal) (x' h' c' : (⟨2, ![R', 1024]⟩ : Shape).Idx → EReal)
    (gi gf gg gi' gf' gg' : Gate) (p : Fin R) (p' : Fin R') (q : Fin 1024)
    (hx : ∀ k : Fin 1024, x (ix2 p k) = x' (ix2 p' k)) (hh : ∀ k : Fin 1024, h (ix2 p k) = h' (ix2 p' k))
    (hc : c (ix2 p q) = c' (ix2 p' q)) (hi : gi = gi') (hf : gf = gf') (hg : gg = gg') :
    cellAt x h c gi gf gg p q = cellAt x' h' c' gi' gf' gg' p' q := by
  subst hi hf hg
  unfold cellAt
  rw [gi.act_congr x h x' h' p p' q hx hh, gf.act_congr x h x' h' p p' q hx hh, gg.act_congr x h x' h' p p' q hx hh, hc]

/-- Row `p` of the new hidden state is a function of row `p` of `x`, `h` and `c` (and of the gates). -/
theorem hiddenAt_congr {R R' : Nat} (x h c : (⟨2, ![R, 1024]⟩ : Shape).Idx → EReal) (x' h' c' : (⟨2, ![R', 1024]⟩ : Shape).Idx → EReal)
    (gi gf gg go gi' gf' gg' go' : Gate) (p : Fin R) (p' : Fin R') (q : Fin 1024)
    (hx : ∀ k : Fin 1024, x (ix2 p k) = x' (ix2 p' k)) (hh : ∀ k : Fin 1024, h (ix2 p k) = h' (ix2 p' k))
    (hc : c (ix2 p q) = c' (ix2 p' q)) (hi : gi = gi') (hf : gf = gf') (hg : gg = gg') (ho : go = go') :
    hiddenAt x h c gi gf gg go p q = hiddenAt x' h' c' gi' gf' gg' go' p' q := by
  subst hi hf hg ho
  unfold hiddenAt
  rw [gi.act_congr x h x' h' p p' q hx hh, gf.act_congr x h x' h' p p' q hx hh, gg.act_congr x h x' h' p p' q hx hh,
    go.act_congr x h x' h' p p' q hx hh, hc]

/-- The new cell state as an array. -/
def cellArr {R : Nat} (x h c : (⟨2, ![R, 1024]⟩ : Shape).Idx → EReal) (gi gf gg : Gate) :
    (⟨2, ![R, 1024]⟩ : Shape).Idx → EReal := fun j => cellAt x h c gi gf gg (j 0) (j 1)

/-- The new hidden state as an array. -/
def hiddenArr {R : Nat} (x h c : (⟨2, ![R, 1024]⟩ : Shape).Idx → EReal) (gi gf gg go : Gate) :
    (⟨2, ![R, 1024]⟩ : Shape).Idx → EReal := fun j => hiddenAt x h c gi gf gg go (j 0) (j 1)

/-- The word `0x3F800000` is the number one. -/
theorem one_word : Ideal.ofBits .f32 0x3F800000#32 = 1 := by
  simp [Ideal.ofBits, Ideal.ieee, -EReal.coe_mul]; norm_num

/-- `1 / (1 + e^(−z))` with both ones spelt as the word of `1.0` is the logistic function of `z`. -/
theorem div_one_word (z : EReal) :
    Ideal.div (Ideal.ofBits .f32 0x3F800000#32) (Ideal.ofBits .f32 0x3F800000#32 + Ideal.exp (-z)) = Ideal.logistic z := by
  rw [one_word]; rfl

end Cert.LstmCell

end
-- ==== Proof.Payload.lean ====
/-
  What the kernel body stores, element by element, at the ideal instance.

  The body works on a block of 128 rows. From the block's rows of `x`, `h` and `c` and from the whole weight matrices
  and bias rows it computes four gate pre-activations — two matrix products into a zero accumulator, each contracting
  the SECOND axis of both operands (so `∑ₖ a[r,k]·M[q,k]`, a product with the transpose), their sum, plus the bias row
  broadcast over the 128 rows — then `c' = σ(a_f)·c + σ(a_i)·tanh(a_g)`, stored to the cell-state window, and
  `σ(a_o)·tanh(c')`, stored to the hidden-state window. Read at row `r`, unit `q` these are `cellAt` and `hiddenAt` of
  the block (the one-step functions of CellSpec.lean at `R = 128`), the bias of a gate being the row `β[0, ·]`.
  The shape casts in the body are between equal shapes and are the identity.
-/
import proofs.«104652_j7112465842327_1_alg».proof.Proof.Gen.KernelIdeal.Skeleton
import proofs.«104652_j7112465842327_1_alg».proof.Proof.CellSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.LstmCell

/-! ## The matrix product's operand indices -/

/-- The left operand is read at the output's row … -/
theorem lhs_axis0 (j : S128x1024.Idx) (k : dot_S128x1024_S1024x1024_S128x1024_1_1_0_0_n_n.contr.Idx) :
    (dot_S128x1024_S1024x1024_S128x1024_1_1_0_0_n_n.lhsIdx j k 0).val = (j 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
/-- … and the contraction's coordinate. -/
theorem lhs_axis1 (j : S128x1024.Idx) (k : dot_S128x1024_S1024x1024_S128x1024_1_1_0_0_n_n.contr.Idx) :
    (dot_S128x1024_S1024x1024_S128x1024_1_1_0_0_n_n.lhsIdx j k 1).val = (k ⟨0, by decide⟩).val :=
  dot_S128x1024_S1024x1024_S128x1024_1_1_0_0_n_n.lhsIdx_val_of_single rfl j k
/-- The right operand is read at the output's COLUMN on its first axis … -/
theorem rhs_axis0 (j : S128x1024.Idx) (k : dot_S128x1024_S1024x1024_S128x1024_1_1_0_0_n_n.contr.Idx) :
    (dot_S128x1024_S1024x1024_S128x1024_1_1_0_0_n_n.rhsIdx j k 0).val = (j 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
/-- … and the contraction's coordinate on its second: the matrix enters transposed. -/
theorem rhs_axis1 (j : S128x1024.Idx) (k : dot_S128x1024_S1024x1024_S128x1024_1_1_0_0_n_n.contr.Idx) :
    (dot_S128x1024_S1024x1024_S128x1024_1_1_0_0_n_n.rhsIdx j k 1).val = (k ⟨0, by decide⟩).val :=
  dot_S128x1024_S1024x1024_S128x1024_1_1_0_0_n_n.rhsIdx_val_of_single rfl j k

/-- A product into the zero accumulator, read at `(r, q)`: `∑ₖ a[r,k]·M[q,k]`. -/
theorem matmul_rowDot (a : FVec Ideal S128x1024 .bf16) (M : FVec Ideal S1024x1024 .bf16) (r : Fin 128) (q : Fin 1024) :
    matmul dot_S128x1024_S1024x1024_S128x1024_1_1_0_0_n_n none a M (constant (F := Ideal) S128x1024 .f32 0x00000000#32) (ix2 r q) = rowDot a M r q := by
  simp only [matmul]
  rw [Ideal.matmul_constant_zero_apply, ← Equiv.sum_comp (contrEquiv1 dot_S128x1024_S1024x1024_S128x1024_1_1_0_0_n_n 1024 rfl rfl).symm]
  unfold rowDot
  refine Finset.sum_congr rfl fun k _ => ?_
  have hk := contrEquiv1_symm_val dot_S128x1024_S1024x1024_S128x1024_1_1_0_0_n_n 1024 rfl rfl k
  have el : dot_S128x1024_S1024x1024_S128x1024_1_1_0_0_n_n.lhsIdx (ix2 r q) ((contrEquiv1 dot_S128x1024_S1024x1024_S128x1024_1_1_0_0_n_n 1024 rfl rfl).symm k) = ix2 r k := funext fun a => Fin.ext (by
    match a with
    | ⟨0, _⟩ => exact lhs_axis0 _ _
    | ⟨1, _⟩ => exact (lhs_axis1 _ _).trans hk)
  have er : dot_S128x1024_S1024x1024_S128x1024_1_1_0_0_n_n.rhsIdx (ix2 r q) ((contrEquiv1 dot_S128x1024_S1024x1024_S128x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ## One gate -/

/-- The gate whose weights are the two loaded matrices and whose bias is the loaded row. -/
abbrev gateOf (M N : FVec Ideal S1024x1024 .bf16) (β : FVec Ideal S1x1024 .f32) : Gate := ⟨M, N, fun q => β (ix2 (0 : Fin 1) q)⟩

/-- Two products, their sum, and the bias row broadcast over the rows: the gate's pre-activation at `(r, q)`. -/
theorem preact_apply (a b : FVec Ideal S128x1024 .bf16) (M N : FVec Ideal S1024x1024 .bf16) (β : FVec Ideal S1x1024 .f32)
    (r : Fin 128) (q : Fin 1024) :
    addf (addf (matmul dot_S128x1024_S1024x1024_S128x1024_1_1_0_0_n_n none a M (constant (F := Ideal) S128x1024 .f32 0x00000000#32))
               (matmul dot_S128x1024_S1024x1024_S128x1024_1_1_0_0_n_n none b N (constant (F := Ideal) S128x1024 .f32 0x00000000#32)))
         (broadcastTo S128x1024 β broadcasts_S1x1024_S128x1024) (ix2 r q)
      = (gateOf M N β).act a b r q := by
  show matmul dot_S128x1024_S1024x1024_S128x1024_1_1_0_0_n_n none a M (constant (F := Ideal) S128x1024 .f32 0x00000000#32) (ix2 r q)
        + matmul dot_S128x1024_S1024x1024_S128x1024_1_1_0_0_n_n none b N (constant (F := Ideal) S128x1024 .f32 0x00000000#32) (ix2 r q)
        + broadcastTo S128x1024 β broadcasts_S1x1024_S128x1024 (ix2 r q) = _
  rw [matmul_rowDot, matmul_rowDot, broadcastTo_1b_ab_apply]
  rfl

/-! ## The payloads -/

/-- A hyperbolic tangent of a block, at an index. -/
theorem tanh_apply {s : Shape} {φ : FTy} (a : FVec Ideal s φ) (i : s.Idx) : tanh a i = Ideal.tanh (a i) := rfl
/-- A logistic function of a block, at an index. -/
theorem logistic_apply {s : Shape} {φ : FTy} (a : FVec Ideal s φ) (i : s.Idx) : logistic a i = Ideal.logistic (a i) := rfl

/-- The cast of the loaded `x` block to its own shape is the block. -/
theorem pay3_eq (x0 : FVec Ideal S128x1024 .bf16) : k0_pay3 (F := Ideal) x0 = x0 := shapeCast_self _ _
/-- The cast of the loaded `h` block to its own shape is the block. -/
theorem pay4_eq (x1 : FVec Ideal S128x1024 .bf16) : k0_pay4 (F := Ideal) x1 = x1 := shapeCast_self _ _

/-- The input gate as the body computes it: the logistic function of its pre-activation. -/
theorem pay5_apply (x0 x1 : FVec Ideal S128x1024 .bf16) (M N : FVec Ideal S1024x1024 .bf16) (β : FVec Ideal S1x1024 .f32)
    (r : Fin 128) (q : Fin 1024) :
    k0_pay5 (F := Ideal) x0 x1 M N β (ix2 r q) = Ideal.logistic ((gateOf M N β).act x0 x1 r q) := by
  unfold k0_pay5
  simp only [shapeCast_self, pay3_eq, pay4_eq]
  rw [logistic_apply, preact_apply]

/-- The forget gate likewise. -/
theorem pay6_apply (x0 x1 : FVec Ideal S128x1024 .bf16) (M N : FVec Ideal S1024x1024 .bf16) (β : FVec Ideal S1x1024 .f32)
    (r : Fin 128) (q : Fin 1024) :
    k0_pay6 (F := Ideal) x0 x1 M N β (ix2 r q) = Ideal.logistic ((gateOf M N β).act x0 x1 r q) := by
  unfold k0_pay6
  simp only [shapeCast_self, pay3_eq, pay4_eq]
  rw [logistic_apply, preact_apply]

/-- THE CELL STATE the body stores, at `(r, q)`: `σ(a_f)·c + σ(a_i)·tanh(a_g)` of the block's rows. -/
theorem cell_apply (x0 x1 : FVec Ideal S128x1024 .bf16) (x2 : FVec Ideal S128x1024 .f32)
    (Mi Ni Mf Nf Mg Ng : FVec Ideal S1024x1024 .bf16) (βi βf βg : FVec Ideal S1x1024 .f32) (r : Fin 128) (q : Fin 1024) :
    k0_pay1 (F := Ideal) x1 x2 (k0_pay5 x0 x1 Mi Ni βi) (k0_pay6 x0 x1 Mf Nf βf) (k0_pay7 x0 Mg) Ng βg (ix2 r q)
      = cellAt x0 x1 x2 (gateOf Mi Ni βi) (gateOf Mf Nf βf) (gateOf Mg Ng βg) r q := by
  unfold k0_pay1 k0_pay7
  simp only [shapeCast_self, pay3_eq]
  rw [addf_apply, mulf_apply, mulf_apply, tanh_apply, preact_apply, pay5_apply, pay6_apply]
  rfl

/-- THE HIDDEN STATE the body stores, at `(r, q)`: `σ(a_o)·tanh(c')`. -/
theorem hidden_apply (x0 x1 : FVec Ideal S128x1024 .bf16) (x2 : FVec Ideal S128x1024 .f32)
    (Mi Ni Mf Nf Mg Ng Mo No : FVec Ideal S1024x1024 .bf16) (βi βf βg βo : FVec Ideal S1x1024 .f32) (r : Fin 128) (q : Fin 1024) :
    k0_pay2 (F := Ideal) x0 x1 x2 (k0_pay5 x0 x1 Mi Ni βi) (k0_pay6 x0 x1 Mf Nf βf) (k0_pay7 x0 Mg) Ng βg Mo No βo (ix2 r q)
      = hiddenAt x0 x1 x2 (gateOf Mi Ni βi) (gateOf Mf Nf βf) (gateOf Mg Ng βg) (gateOf Mo No βo) r q := by
  unfold k0_pay2
  simp only [shapeCast_self]
  rw [mulf_apply, logistic_apply, tanh_apply, preact_apply, cell_apply]
  rfl

/-- The stored cell state, with the cast of the `h` block as the body spells it. -/
theorem cell_stored (x0 x1 : FVec Ideal S128x1024 .bf16) (x2 : FVec Ideal S128x1024 .f32)
    (Mi Ni Mf Nf Mg Ng : FVec Ideal S1024x1024 .bf16) (βi βf βg : FVec Ideal S1x1024 .f32) (r : Fin 128) (q : Fin 1024) :
    k0_pay1 (F := Ideal) (k0_pay4 x1) x2 (k0_pay5 x0 x1 Mi Ni βi) (k0_pay6 x0 x1 Mf Nf βf) (k0_pay7 x0 Mg) Ng βg (ix2 r q)
      = cellAt x0 x1 x2 (gateOf Mi Ni βi) (gateOf Mf Nf βf) (gateOf Mg Ng βg) r q := by
  rw [pay4_eq]; exact cell_apply x0 x1 x2 Mi Ni Mf Nf Mg Ng βi βf βg r q

/-- The stored hidden state, with the casts of the `x` and `h` blocks as the body spells them. -/
theorem hidden_stored (x0 x1 : FVec Ideal S128x1024 .bf16) (x2 : FVec Ideal S128x1024 .f32)
    (Mi Ni Mf Nf Mg Ng Mo No : FVec Ideal S1024x1024 .bf16) (βi βf βg βo : FVec Ideal S1x1024 .f32) (r : Fin 128) (q : Fin 1024) :
    k0_pay2 (F := Ideal) (k0_pay3 x0) (k0_pay4 x1) x2 (k0_pay5 x0 x1 Mi Ni βi) (k0_pay6 x0 x1 Mf Nf βf) (k0_pay7 x0 Mg) Ng βg Mo No βo (ix2 r q)
      = hiddenAt x0 x1 x2 (gateOf Mi Ni βi) (gateOf Mf Nf βf) (gateOf Mg Ng βg) (gateOf Mo No βo) r q := by
  rw [pay3_eq, pay4_eq]; exact hidden_apply x0 x1 x2 Mi Ni Mf Nf Mg Ng Mo No βi βf βg βo r q

end Cert.KernelIdeal.Payload

end
-- ==== Proof.KernelArrays.lean ====
/-
  The kernel's two result arrays after the run, as the one-step functions of the program's arguments.

  Before the region the host program casts `x`, `h` and the eight weight matrices to bf16 — the identity on extended
  reals — and adds each gate's two bias vectors, reshaping the sum from `[1024]` to `[1, 1024]`. The grid has 64 points.
  At point `t` the windows of `x`, `h`, `c` and of the two results hold rows `128·t … 128·t + 127` of their arrays
  (block index `(t, 0)`, block size `128 × 1024`); every weight and bias window holds its whole array at every point
  (block index `(0, 0)`). So row `r` of a block is row `128·t + r` of the array, and since a row of the new cell and
  hidden states depends only on the same row of `x`, `h`, `c`, what point `t` writes back is block `t` of the one-step
  functions of the ARGUMENTS. The 64 blocks tile the `8192` rows — row `i` lies in block `i / 128` — so after the run
  each result array is that function.
-/
import proofs.«104652_j7112465842327_1_alg».proof.Proof.Gen.KernelIdeal.Value
import proofs.«104652_j7112465842327_1_alg».proof.Proof.Payload
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.CellValue

open Cert.KernelIdeal Cert.KernelIdeal.Gen Cert.KernelIdeal.Value Cert.KernelIdeal.Payload Cert.LstmCell
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The four gates and the two results, of the arguments -/

/-- The input gate: weights `W_i_i2h`, `W_i_h2h`, bias `b_i_i2h + b_i_h2h`. -/
def gateI (c : Dev nD) : Gate := Gate.ofParts (m ((c : Thread nD τ).loc main_arg3)) (m ((c : Thread nD τ).loc main_arg5)) (m ((c : Thread nD τ).loc main_arg4)) (m ((c : Thread nD τ).loc main_arg6))
/-- The forget gate. -/
def gateF (c : Dev nD) : Gate := Gate.ofParts (m ((c : Thread nD τ).loc main_arg7)) (m ((c : Thread nD τ).loc main_arg9)) (m ((c : Thread nD τ).loc main_arg8)) (m ((c : Thread nD τ).loc main_arg10))
/-- The candidate gate. -/
def gateG (c : Dev nD) : Gate := Gate.ofParts (m ((c : Thread nD τ).loc main_arg11)) (m ((c : Thread nD τ).loc main_arg13)) (m ((c : Thread nD τ).loc main_arg12)) (m ((c : Thread nD τ).loc main_arg14))
/-- The output gate. -/
def gateO (c : Dev nD) : Gate := Gate.ofParts (m ((c : Thread nD τ).loc main_arg15)) (m ((c : Thread nD τ).loc main_arg17)) (m ((c : Thread nD τ).loc main_arg16)) (m ((c : Thread nD τ).loc main_arg18))

/-- The new cell state of the arguments. -/
def cellG (c : Dev nD) : S8192x1024.Idx → EReal :=
  cellArr (m ((c : Thread nD τ).loc main_arg0)) (m ((c : Thread nD τ).loc main_arg1)) (m ((c : Thread nD τ).loc main_arg2)) (gateI m c) (gateF m c) (gateG m c)
/-- The new hidden state of the arguments. -/
def hiddenG (c : Dev nD) : S8192x1024.Idx → EReal :=
  hiddenArr (m ((c : Thread nD τ).loc main_arg0)) (m ((c : Thread nD τ).loc main_arg1)) (m ((c : Thread nD τ).loc main_arg2)) (gateI m c) (gateF m c) (gateG m c) (gateO m c)

/-! ## The arrays the region finds -/

/-- `x` cast to bf16 is `x`. -/
theorem arr_x (c : Dev nD) : (V m c main_v0 : S8192x1024.Idx → EReal) = m ((c : Thread nD τ).loc main_arg0) := by
  dsimp only [Gen.V, Gen.hostOps0]; after_results; rfl
/-- `h` cast to bf16 is `h`. -/
theorem arr_h (c : Dev nD) : (V m c main_v1 : S8192x1024.Idx → EReal) = m ((c : Thread nD τ).loc main_arg1) := by
  dsimp only [Gen.V, Gen.hostOps0]; after_results; rfl
/-- Each weight matrix cast to bf16 is the matrix. -/
theorem arr_wi (c : Dev nD) : (V m c main_v2 : S1024x1024.Idx → EReal) = m ((c : Thread nD τ).loc main_arg3) := by
  dsimp only [Gen.V, Gen.hostOps0]; after_results; rfl
theorem arr_ui (c : Dev nD) : (V m c main_v3 : S1024x1024.Idx → EReal) = m ((c : Thread nD τ).loc main_arg5) := by
  dsimp only [Gen.V, Gen.hostOps0]; after_results; rfl
theorem arr_wf (c : Dev nD) : (V m c main_v4 : S1024x1024.Idx → EReal) = m ((c : Thread nD τ).loc main_arg7) := by
  dsimp only [Gen.V, Gen.hostOps0]; after_results; rfl
theorem arr_uf (c : Dev nD) : (V m c main_v5 : S1024x1024.Idx → EReal) = m ((c : Thread nD τ).loc main_arg9) := by
  dsimp only [Gen.V, Gen.hostOps0]; after_results; rfl
theorem arr_wg (c : Dev nD) : (V m c main_v6 : S1024x1024.Idx → EReal) = m ((c : Thread nD τ).loc main_arg11) := by
  dsimp only [Gen.V, Gen.hostOps0]; after_results; rfl
theorem arr_ug (c : Dev nD) : (V m c main_v7 : S1024x1024.Idx → EReal) = m ((c : Thread nD τ).loc main_arg13) := by
  dsimp only [Gen.V, Gen.hostOps0]; after_results; rfl
theorem arr_wo (c : Dev nD) : (V m c main_v8 : S1024x1024.Idx → EReal) = m ((c : Thread nD τ).loc main_arg15) := by
  dsimp only [Gen.V, Gen.hostOps0]; after_results; rfl
theorem arr_uo (c : Dev nD) : (V m c main_v9 : S1024x1024.Idx → EReal) = m ((c : Thread nD τ).loc main_arg17) := by
  dsimp only [Gen.V, Gen.hostOps0]; after_results; rfl

/-- The input gate's bias row is the gate's bias: the sum of its two bias vectors, reshaped to one row. -/
theorem arr_bi (c : Dev nD) (q : Fin 1024) :
    (V m c main_v11 : S1x1024.Idx → EReal) (ix2 (0 : Fin 1) q) = (gateI m c).β q := by
  have e : (V m c main_v11 : S1x1024.Idx → EReal)
      = shapeCast S1x1024 (addf (F := Ideal) (s := S1024) (φ := .f32) (m ((c : Thread nD τ).loc main_arg4)) (m ((c : Thread nD τ).loc main_arg6))) shapeCasts_S1024_S1x1024 := by
    dsimp only [Gen.V, Gen.hostOps0]; after_results; rfl
  rw [e, shapeCast_a_1a_apply]; rfl
/-- The forget gate's bias row. -/
theorem arr_bf (c : Dev nD) (q : Fin 1024) :
    (V m c main_v13 : S1x1024.Idx → EReal) (ix2 (0 : Fin 1) q) = (gateF m c).β q := by
  have e : (V m c main_v13 : S1x1024.Idx → EReal)
      = shapeCast S1x1024 (addf (F := Ideal) (s := S1024) (φ := .f32) (m ((c : Thread nD τ).loc main_arg8)) (m ((c : Thread nD τ).loc main_arg10))) shapeCasts_S1024_S1x1024 := by
    dsimp only [Gen.V, Gen.hostOps0]; after_results; rfl
  rw [e, shapeCast_a_1a_apply]; rfl
/-- The candidate gate's bias row. -/
theorem arr_bg (c : Dev nD) (q : Fin 1024) :
    (V m c main_v15 : S1x1024.Idx → EReal) (ix2 (0 : Fin 1) q) = (gateG m c).β q := by
  have e : (V m c main_v15 : S1x1024.Idx → EReal)
      = shapeCast S1x1024 (addf (F := Ideal) (s := S1024) (φ := .f32) (m ((c : Thread nD τ).loc main_arg12)) (m ((c : Thread nD τ).loc main_arg14))) shapeCasts_S1024_S1x1024 := by
    dsimp only [Gen.V, Gen.hostOps0]; after_results; rfl
  rw [e, shapeCast_a_1a_apply]; rfl
/-- The output gate's bias row. -/
theorem arr_bo (c : Dev nD) (q : Fin 1024) :
    (V m c main_v17 : S1x1024.Idx → EReal) (ix2 (0 : Fin 1) q) = (gateO m c).β q := by
  have e : (V m c main_v17 : S1x1024.Idx → EReal)
      = shapeCast S1x1024 (addf (F := Ideal) (s := S1024) (φ := .f32) (m ((c : Thread nD τ).loc main_arg16)) (m ((c : Thread nD τ).loc main_arg18))) shapeCasts_S1024_S1x1024 := by
    dsimp only [Gen.V, Gen.hostOps0]; after_results; rfl
  rw [e, shapeCast_a_1a_apply]; rfl

/-! ## The printed index maps, decided over the 64 points -/

theorem hz : (![0, 0] : Fin 2 → Nat) = fun _ => 0 := funext fun a => by fin_cases a <;> rfl

/-- The row windows (`x`, `h`, `c`, and the hidden state's) move with the cell state's window along the rows and sit at
    column block `0`; the cell state's block index along the rows stays below `64`. -/
theorem idx_rows : ∀ t : Fin cfg0.N,
      win0_0.index t (0 : Fin 2) = win0_16.index t (0 : Fin 2) ∧ win0_0.index t (1 : Fin 2) = 0
    ∧ win0_1.index t (0 : Fin 2) = win0_16.index t (0 : Fin 2) ∧ win0_1.index t (1 : Fin 2) = 0
    ∧ win0_2.index t (0 : Fin 2) = win0_16.index t (0 : Fin 2) ∧ win0_2.index t (1 : Fin 2) = 0
    ∧ win0_15.index t (0 : Fin 2) = win0_16.index t (0 : Fin 2) ∧ win0_15.index t (1 : Fin 2) = 0
    ∧ win0_16.index t (0 : Fin 2) ≤ 63 ∧ win0_16.index t (1 : Fin 2) = 0 :=
  (by decide +kernel : ∀ t : Fin grid0.N, _)

/-- Every weight and bias window sits at block `(0, 0)` at every point: it holds its whole array. -/
theorem idx_whole : ∀ t : Fin cfg0.N, ∀ a : Fin 2,
      win0_3.index t a = 0 ∧ win0_4.index t a = 0 ∧ win0_5.index t a = 0 ∧ win0_6.index t a = 0
    ∧ win0_7.index t a = 0 ∧ win0_8.index t a = 0 ∧ win0_9.index t a = 0 ∧ win0_10.index t a = 0
    ∧ win0_11.index t a = 0 ∧ win0_12.index t a = 0 ∧ win0_13.index t a = 0 ∧ win0_14.index t a = 0 :=
  (by decide +kernel : ∀ t : Fin grid0.N, ∀ a : Fin 2, _)

/-- Every row block is some point's, for both results. -/
theorem idx_onto : ∀ b : Fin 64, ∃ t : Fin cfg0.N, win0_16.index t = ![b.val, 0] ∧ win0_15.index t = ![b.val, 0] :=
  (by decide +kernel : ∀ b : Fin 64, ∃ t : Fin grid0.N, win0_16.index t = ![b.val, 0] ∧ win0_15.index t = ![b.val, 0])

/-! ## The blocks, read off the arguments -/

/-- Row `r` of the `x` block at point `t` is row `128·t + r` of `x`. -/
theorem blk_x (c : Dev nD) (t : Fin cfg0.N) (r : Fin 128) (k : Fin 1024) (p : Fin 8192)
    (hp : p.val = win0_16.index t (0 : Fin 2) * 128 + r.val) :
    iblk m c 0 t (ix2 r k) = m ((c : Thread nD τ).loc main_arg0) (ix2 p k) := by
  show V m c main_v0 (((cfg0.win 0).blk t).view.emb (ix2 r k)) = _
  rw [arr_x]
  obtain ⟨e0, e1, -⟩ := idx_rows t
  have he : ((cfg0.win 0).blk t).view.emb (ix2 r k) = ix2 p k := funext fun a => Fin.ext (by
    match a with
    | ⟨0, _⟩ => show win0_0.index t (0 : Fin 2) * 128 + 1 * r.val = p.val; omega
    | ⟨1, _⟩ => show win0_0.index t (1 : Fin 2) * 1024 + 1 * k.val = k.val; omega)
  rw [he]

/-- Row `r` of the `h` block at point `t` is row `128·t + r` of `h`. -/
theorem blk_h (c : Dev nD) (t : Fin cfg0.N) (r : Fin 128) (k : Fin 1024) (p : Fin 8192)
    (hp : p.val = win0_16.index t (0 : Fin 2) * 128 + r.val) :
    iblk m c 1 t (ix2 r k) = m ((c : Thread nD τ).loc main_arg1) (ix2 p k) := by
  show V m c main_v1 (((cfg0.win 1).blk t).view.emb (ix2 r k)) = _
  rw [arr_h]
  obtain ⟨-, -, e0, e1, -⟩ := idx_rows t
  have he : ((cfg0.win 1).blk t).view.emb (ix2 r k) = ix2 p k := funext fun a => Fin.ext (by
    match a with
    | ⟨0, _⟩ => show win0_1.index t (0 : Fin 2) * 128 + 1 * r.val = p.val; omega
    | ⟨1, _⟩ => show win0_1.index t (1 : Fin 2) * 1024 + 1 * k.val = k.val; omega)
  rw [he]

/-- Row `r` of the `c` block at point `t` is row `128·t + r` of `c`. -/
theorem blk_c (c : Dev nD) (t : Fin cfg0.N) (r : Fin 128) (k : Fin 1024) (p : Fin 8192)
    (hp : p.val = win0_16.index t (0 : Fin 2) * 128 + r.val) :
    iblk m c 2 t (ix2 r k) = m ((c : Thread nD τ).loc main_arg2) (ix2 p k) := by
  show V m c main_arg2 (((cfg0.win 2).blk t).view.emb (ix2 r k)) = _
  rw [V_main_arg2]
  obtain ⟨-, -, -, -, e0, e1, -⟩ := idx_rows t
  have he : ((cfg0.win 2).blk t).view.emb (ix2 r k) = ix2 p k := funext fun a => Fin.ext (by
    match a with
    | ⟨0, _⟩ => show win0_2.index t (0 : Fin 2) * 128 + 1 * r.val = p.val; omega
    | ⟨1, _⟩ => show win0_2.index t (1 : Fin 2) * 1024 + 1 * k.val = k.val; omega)
  rw [he]

/-- The input gate as point `t` loads it is the input gate of the arguments. -/
theorem gate_i (c : Dev nD) (t : Fin cfg0.N) :
    Payload.gateOf (iblk m c 3 t) (iblk m c 4 t) (iblk m c 11 t) = gateI m c := by
  have h0 := idx_whole t 0
  have h1 := idx_whole t 1
  have hW : (iblk m c 3 t : S1024x1024.Idx → EReal) = m ((c : Thread nD τ).loc main_arg3) := by
    funext y
    show V m c main_v2 (((cfg0.win 3).blk t).view.emb y) = _
    rw [arr_wi]
    have he : ((cfg0.win 3).blk t).view.emb y = y := funext fun a => Fin.ext (by
      match a with
      | ⟨0, _⟩ => show win0_3.index t (0 : Fin 2) * 1024 + 1 * (y 0).val = (y 0).val; omega
      | ⟨1, _⟩ => show win0_3.index t (1 : Fin 2) * 1024 + 1 * (y 1).val = (y 1).val; omega)
    rw [he]
  have hU : (iblk m c 4 t : S1024x1024.Idx → EReal) = m ((c : Thread nD τ).loc main_arg5) := by
    funext y
    show V m c main_v3 (((cfg0.win 4).blk t).view.emb y) = _
    rw [arr_ui]
    have he : ((cfg0.win 4).blk t).view.emb y = y := funext fun a => Fin.ext (by
      match a with
      | ⟨0, _⟩ => show win0_4.index t (0 : Fin 2) * 1024 + 1 * (y 0).val = (y 0).val; omega
      | ⟨1, _⟩ => show win0_4.index t (1 : Fin 2) * 1024 + 1 * (y 1).val = (y 1).val; omega)
    rw [he]
  have hβ : ∀ q : Fin 1024, iblk m c 11 t (ix2 (0 : Fin 1) q) = (gateI m c).β q := by
    intro q
    show V m c main_v11 (((cfg0.win 11).blk t).view.emb (ix2 (0 : Fin 1) q)) = _
    have he : ((cfg0.win 11).blk t).view.emb (ix2 (0 : Fin 1) q) = ix2 (0 : Fin 1) q := funext fun a => Fin.ext (by
      match a with
      | ⟨0, _⟩ => show win0_11.index t (0 : Fin 2) * 1 + 1 * 0 = 0; omega
      | ⟨1, _⟩ => show win0_11.index t (1 : Fin 2) * 1024 + 1 * q.val = q.val; omega)
    rw [he]; exact arr_bi m c q
  have hβ' : (fun q : Fin 1024 => (iblk m c 11 t (ix2 (0 : Fin 1) q) : EReal)) = (gateI m c).β := funext hβ
  show Gate.mk (iblk m c 3 t) (iblk m c 4 t) (fun q : Fin 1024 => (iblk m c 11 t (ix2 (0 : Fin 1) q) : EReal)) = gateI m c
  rw [hW, hU, hβ']
  rfl

/-- The forget gate as point `t` loads it is the forget gate of the arguments. -/
theorem gate_f (c : Dev nD) (t : Fin cfg0.N) :
    Payload.gateOf (iblk m c 5 t) (iblk m c 6 t) (iblk m c 12 t) = gateF m c := by
  have h0 := idx_whole t 0
  have h1 := idx_whole t 1
  have hW : (iblk m c 5 t : S1024x1024.Idx → EReal) = m ((c : Thread nD τ).loc main_arg7) := by
    funext y
    show V m c main_v4 (((cfg0.win 5).blk t).view.emb y) = _
    rw [arr_wf]
    have he : ((cfg0.win 5).blk t).view.emb y = y := funext fun a => Fin.ext (by
      match a with
      | ⟨0, _⟩ => show win0_5.index t (0 : Fin 2) * 1024 + 1 * (y 0).val = (y 0).val; omega
      | ⟨1, _⟩ => show win0_5.index t (1 : Fin 2) * 1024 + 1 * (y 1).val = (y 1).val; omega)
    rw [he]
  have hU : (iblk m c 6 t : S1024x1024.Idx → EReal) = m ((c : Thread nD τ).loc main_arg9) := by
    funext y
    show V m c main_v5 (((cfg0.win 6).blk t).view.emb y) = _
    rw [arr_uf]
    have he : ((cfg0.win 6).blk t).view.emb y = y := funext fun a => Fin.ext (by
      match a with
      | ⟨0, _⟩ => show win0_6.index t (0 : Fin 2) * 1024 + 1 * (y 0).val = (y 0).val; omega
      | ⟨1, _⟩ => show win0_6.index t (1 : Fin 2) * 1024 + 1 * (y 1).val = (y 1).val; omega)
    rw [he]
  have hβ : ∀ q : Fin 1024, iblk m c 12 t (ix2 (0 : Fin 1) q) = (gateF m c).β q := by
    intro q
    show V m c main_v13 (((cfg0.win 12).blk t).view.emb (ix2 (0 : Fin 1) q)) = _
    have he : ((cfg0.win 12).blk t).view.emb (ix2 (0 : Fin 1) q) = ix2 (0 : Fin 1) q := funext fun a => Fin.ext (by
      match a with
      | ⟨0, _⟩ => show win0_12.index t (0 : Fin 2) * 1 + 1 * 0 = 0; omega
      | ⟨1, _⟩ => show win0_12.index t (1 : Fin 2) * 1024 + 1 * q.val = q.val; omega)
    rw [he]; exact arr_bf m c q
  have hβ' : (fun q : Fin 1024 => (iblk m c 12 t (ix2 (0 : Fin 1) q) : EReal)) = (gateF m c).β := funext hβ
  show Gate.mk (iblk m c 5 t) (iblk m c 6 t) (fun q : Fin 1024 => (iblk m c 12 t (ix2 (0 : Fin 1) q) : EReal)) = gateF m c
  rw [hW, hU, hβ']
  rfl

/-- The candidate gate as point `t` loads it is the candidate gate of the arguments. -/
theorem gate_g (c : Dev nD) (t : Fin cfg0.N) :
    Payload.gateOf (iblk m c 7 t) (iblk m c 8 t) (iblk m c 13 t) = gateG m c := by
  have h0 := idx_whole t 0
  have h1 := idx_whole t 1
  have hW : (iblk m c 7 t : S1024x1024.Idx → EReal) = m ((c : Thread nD τ).loc main_arg11) := by
    funext y
    show V m c main_v6 (((cfg0.win 7).blk t).view.emb y) = _
    rw [arr_wg]
    have he : ((cfg0.win 7).blk t).view.emb y = y := funext fun a => Fin.ext (by
      match a with
      | ⟨0, _⟩ => show win0_7.index t (0 : Fin 2) * 1024 + 1 * (y 0).val = (y 0).val; omega
      | ⟨1, _⟩ => show win0_7.index t (1 : Fin 2) * 1024 + 1 * (y 1).val = (y 1).val; omega)
    rw [he]
  have hU : (iblk m c 8 t : S1024x1024.Idx → EReal) = m ((c : Thread nD τ).loc main_arg13) := by
    funext y
    show V m c main_v7 (((cfg0.win 8).blk t).view.emb y) = _
    rw [arr_ug]
    have he : ((cfg0.win 8).blk t).view.emb y = y := funext fun a => Fin.ext (by
      match a with
      | ⟨0, _⟩ => show win0_8.index t (0 : Fin 2) * 1024 + 1 * (y 0).val = (y 0).val; omega
      | ⟨1, _⟩ => show win0_8.index t (1 : Fin 2) * 1024 + 1 * (y 1).val = (y 1).val; omega)
    rw [he]
  have hβ : ∀ q : Fin 1024, iblk m c 13 t (ix2 (0 : Fin 1) q) = (gateG m c).β q := by
    intro q
    show V m c main_v15 (((cfg0.win 13).blk t).view.emb (ix2 (0 : Fin 1) q)) = _
    have he : ((cfg0.win 13).blk t).view.emb (ix2 (0 : Fin 1) q) = ix2 (0 : Fin 1) q := funext fun a => Fin.ext (by
      match a with
      | ⟨0, _⟩ => show win0_13.index t (0 : Fin 2) * 1 + 1 * 0 = 0; omega
      | ⟨1, _⟩ => show win0_13.index t (1 : Fin 2) * 1024 + 1 * q.val = q.val; omega)
    rw [he]; exact arr_bg m c q
  have hβ' : (fun q : Fin 1024 => (iblk m c 13 t (ix2 (0 : Fin 1) q) : EReal)) = (gateG m c).β := funext hβ
  show Gate.mk (iblk m c 7 t) (iblk m c 8 t) (fun q : Fin 1024 => (iblk m c 13 t (ix2 (0 : Fin 1) q) : EReal)) = gateG m c
  rw [hW, hU, hβ']
  rfl

/-- The output gate as point `t` loads it is the output gate of the arguments. -/
theorem gate_o (c : Dev nD) (t : Fin cfg0.N) :
    Payload.gateOf (iblk m c 9 t) (iblk m c 10 t) (iblk m c 14 t) = gateO m c := by
  have h0 := idx_whole t 0
  have h1 := idx_whole t 1
  have hW : (iblk m c 9 t : S1024x1024.Idx → EReal) = m ((c : Thread nD τ).loc main_arg15) := by
    funext y
    show V m c main_v8 (((cfg0.win 9).blk t).view.emb y) = _
    rw [arr_wo]
    have he : ((cfg0.win 9).blk t).view.emb y = y := funext fun a => Fin.ext (by
      match a with
      | ⟨0, _⟩ => show win0_9.index t (0 : Fin 2) * 1024 + 1 * (y 0).val = (y 0).val; omega
      | ⟨1, _⟩ => show win0_9.index t (1 : Fin 2) * 1024 + 1 * (y 1).val = (y 1).val; omega)
    rw [he]
  have hU : (iblk m c 10 t : S1024x1024.Idx → EReal) = m ((c : Thread nD τ).loc main_arg17) := by
    funext y
    show V m c main_v9 (((cfg0.win 10).blk t).view.emb y) = _
    rw [arr_uo]
    have he : ((cfg0.win 10).blk t).view.emb y = y := funext fun a => Fin.ext (by
      match a with
      | ⟨0, _⟩ => show win0_10.index t (0 : Fin 2) * 1024 + 1 * (y 0).val = (y 0).val; omega
      | ⟨1, _⟩ => show win0_10.index t (1 : Fin 2) * 1024 + 1 * (y 1).val = (y 1).val; omega)
    rw [he]
  have hβ : ∀ q : Fin 1024, iblk m c 14 t (ix2 (0 : Fin 1) q) = (gateO m c).β q := by
    intro q
    show V m c main_v17 (((cfg0.win 14).blk t).view.emb (ix2 (0 : Fin 1) q)) = _
    have he : ((cfg0.win 14).blk t).view.emb (ix2 (0 : Fin 1) q) = ix2 (0 : Fin 1) q := funext fun a => Fin.ext (by
      match a with
      | ⟨0, _⟩ => show win0_14.index t (0 : Fin 2) * 1 + 1 * 0 = 0; omega
      | ⟨1, _⟩ => show win0_14.index t (1 : Fin 2) * 1024 + 1 * q.val = q.val; omega)
    rw [he]; exact arr_bo m c q
  have hβ' : (fun q : Fin 1024 => (iblk m c 14 t (ix2 (0 : Fin 1) q) : EReal)) = (gateO m c).β := funext hβ
  show Gate.mk (iblk m c 9 t) (iblk m c 10 t) (fun q : Fin 1024 => (iblk m c 14 t (ix2 (0 : Fin 1) q) : EReal)) = gateO m c
  rw [hW, hU, hβ']
  rfl

/-! ## What each point writes back -/

/-- WHAT POINT `t` WRITES BACK to the cell state's array is block `t` of the new cell state of the arguments. -/
theorem flushed_cell (c : Dev nD) (t : Fin cfg0.N) :
    (dats m 0 c).flushed 16 t = ((cfg0.win 16).blk t).view.read (Elt Ideal) (cellG m c) := by
  rw [Value.flushed16]
  unfold out0_16
  rw [View.canon_unit_zero hz]
  simp only [View.ld_unit_zero (S := S128x1024) hz, View.ld_unit_zero (S := S1024x1024) hz, View.ld_unit_zero (S := S1x1024) hz]
  funext j
  obtain ⟨r, q, rfl⟩ : ∃ (r : Fin 128) (q : Fin 1024), j = ix2 r q := ⟨j 0, j 1, eq_ix2 j⟩
  obtain ⟨-, -, -, -, -, -, -, -, e8, e9⟩ := idx_rows t
  have hp : win0_16.index t (0 : Fin 2) * 128 + r.val < 8192 := by have := r.isLt; omega
  have he : ((cfg0.win 16).blk t).view.emb (ix2 r q) = ix2 (⟨win0_16.index t (0 : Fin 2) * 128 + r.val, hp⟩ : Fin 8192) q :=
    funext fun a => Fin.ext (by
      match a with
      | ⟨0, _⟩ => show win0_16.index t (0 : Fin 2) * 128 + 1 * r.val = win0_16.index t (0 : Fin 2) * 128 + r.val; omega
      | ⟨1, _⟩ => show win0_16.index t (1 : Fin 2) * 1024 + 1 * q.val = q.val; omega)
  show k0_pay1 (F := Ideal) (k0_pay4 (iblk m c 1 t)) (iblk m c 2 t) (k0_pay5 (iblk m c 0 t) (iblk m c 1 t) (iblk m c 3 t) (iblk m c 4 t) (iblk m c 11 t))
        (k0_pay6 (iblk m c 0 t) (iblk m c 1 t) (iblk m c 5 t) (iblk m c 6 t) (iblk m c 12 t)) (k0_pay7 (iblk m c 0 t) (iblk m c 7 t)) (iblk m c 8 t) (iblk m c 13 t) (ix2 r q)
      = cellG m c (((cfg0.win 16).blk t).view.emb (ix2 r q))
  rw [he]
  refine (cell_stored (iblk m c 0 t) (iblk m c 1 t) (iblk m c 2 t) (iblk m c 3 t) (iblk m c 4 t) (iblk m c 5 t) (iblk m c 6 t) (iblk m c 7 t) (iblk m c 8 t) (iblk m c 11 t) (iblk m c 12 t) (iblk m c 13 t) r q).trans ?_
  exact cellAt_congr (iblk m c 0 t) (iblk m c 1 t) (iblk m c 2 t) (m ((c : Thread nD τ).loc main_arg0)) (m ((c : Thread nD τ).loc main_arg1)) (m ((c : Thread nD τ).loc main_arg2))
    _ _ _ (gateI m c) (gateF m c) (gateG m c) r ⟨win0_16.index t (0 : Fin 2) * 128 + r.val, hp⟩ q
    (fun k => blk_x m c t r k _ rfl) (fun k => blk_h m c t r k _ rfl) (blk_c m c t r q _ rfl)
    (gate_i m c t) (gate_f m c t) (gate_g m c t)

/-- WHAT POINT `t` WRITES BACK to the hidden state's array is block `t` of the new hidden state of the arguments. -/
theorem flushed_hidden (c : Dev nD) (t : Fin cfg0.N) :
    (dats m 0 c).flushed 15 t = ((cfg0.win 15).blk t).view.read (Elt Ideal) (hiddenG m c) := by
  rw [Value.flushed15]
  unfold out0_15
  rw [View.canon_unit_zero hz]
  simp only [View.ld_unit_zero (S := S128x1024) hz, View.ld_unit_zero (S := S1024x1024) hz, View.ld_unit_zero (S := S1x1024) hz]
  funext j
  obtain ⟨r, q, rfl⟩ : ∃ (r : Fin 128) (q : Fin 1024), j = ix2 r q := ⟨j 0, j 1, eq_ix2 j⟩
  obtain ⟨-, -, -, -, -, -, e6, e7, e8, e9⟩ := idx_rows t
  have hp : win0_16.index t (0 : Fin 2) * 128 + r.val < 8192 := by have := r.isLt; omega
  have he : ((cfg0.win 15).blk t).view.emb (ix2 r q) = ix2 (⟨win0_16.index t (0 : Fin 2) * 128 + r.val, hp⟩ : Fin 8192) q :=
    funext fun a => Fin.ext (by
      match a with
      | ⟨0, _⟩ => show win0_15.index t (0 : Fin 2) * 128 + 1 * r.val = win0_16.index t (0 : Fin 2) * 128 + r.val; omega
      | ⟨1, _⟩ => show win0_15.index t (1 : Fin 2) * 1024 + 1 * q.val = q.val; omega)
  show k0_pay2 (F := Ideal) (k0_pay3 (iblk m c 0 t)) (k0_pay4 (iblk m c 1 t)) (iblk m c 2 t) (k0_pay5 (iblk m c 0 t) (iblk m c 1 t) (iblk m c 3 t) (iblk m c 4 t) (iblk m c 11 t))
        (k0_pay6 (iblk m c 0 t) (iblk m c 1 t) (iblk m c 5 t) (iblk m c 6 t) (iblk m c 12 t)) (k0_pay7 (iblk m c 0 t) (iblk m c 7 t)) (iblk m c 8 t) (iblk m c 13 t) (iblk m c 9 t) (iblk m c 10 t) (iblk m c 14 t) (ix2 r q)
      = hiddenG m c (((cfg0.win 15).blk t).view.emb (ix2 r q))
  rw [he]
  refine (hidden_stored (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r q).trans ?_
  exact hiddenAt_congr (iblk m c 0 t) (iblk m c 1 t) (iblk m c 2 t) (m ((c : Thread nD τ).loc main_arg0)) (m ((c : Thread nD τ).loc main_arg1)) (m ((c : Thread nD τ).loc main_arg2))
    _ _ _ _ (gateI m c) (gateF m c) (gateG m c) (gateO m c) r ⟨win0_16.index t (0 : Fin 2) * 128 + r.val, hp⟩ q
    (fun k => blk_x m c t r k _ rfl) (fun k => blk_h m c t r k _ rfl) (blk_c m c t r q _ rfl)
    (gate_i m c t) (gate_f m c t) (gate_g m c t) (gate_o m c t)

/-! ## The blocks tile the arrays -/

/-- An index of the cell state's array is in point `t`'s block iff each coordinate is in the block's range. -/
theorem mem_blk16 (t : Fin cfg0.N) (i : S8192x1024.Idx) :
    i ∈ ((cfg0.win 16).blk t).view.set ↔ ∀ a : Fin 2, win0_16.index t a * S128x1024.size a ≤ (i a).val ∧ (i a).val < win0_16.index t a * S128x1024.size a + S128x1024.size a := by
  show i ∈ ((View.whole main_v18_1).slice (win0_16.rect t)).set ↔ _
  rw [View.set_slice_whole, Rect.mem_set_unit]
  exact Iff.rfl

/-- The same for the hidden state's array. -/
theorem mem_blk15 (t : Fin cfg0.N) (i : S8192x1024.Idx) :
    i ∈ ((cfg0.win 15).blk t).view.set ↔ ∀ a : Fin 2, win0_15.index t a * S128x1024.size a ≤ (i a).val ∧ (i a).val < win0_15.index t a * S128x1024.size a + S128x1024.size a := by
  show i ∈ ((View.whole main_v18_0).slice (win0_15.rect t)).set ↔ _
  rw [View.set_slice_whole, Rect.mem_set_unit]
  exact Iff.rfl

/-- Row `i` of the cell state's array lies in the block of the point whose row block is `i / 128`. -/
theorem cover16 (i : S8192x1024.Idx) : ∃ t : Fin cfg0.N, (cfg0.win 16).flush t = true ∧ i ∈ ((cfg0.win 16).blk t).view.set := by
  have hi0 : (i 0).val < 8192 := (i 0).isLt
  have hi1 : (i 1).val < 1024 := (i 1).isLt
  obtain ⟨t, ht, -⟩ := idx_onto ⟨(i 0).val / 128, by omega⟩
  have q0 : win0_16.index t (0 : Fin 2) = (i 0).val / 128 := congrFun ht 0
  have q1 : win0_16.index t (1 : Fin 2) = 0 := congrFun ht 1
  refine ⟨t, flush0_16 t, ?_⟩
  rw [mem_blk16]
  intro a
  match a with
  | ⟨0, _⟩ => show win0_16.index t (0 : Fin 2) * 128 ≤ (i 0).val ∧ (i 0).val < win0_16.index t (0 : Fin 2) * 128 + 128; omega
  | ⟨1, _⟩ => show win0_16.index t (1 : Fin 2) * 1024 ≤ (i 1).val ∧ (i 1).val < win0_16.index t (1 : Fin 2) * 1024 + 1024; omega

/-- The same for the hidden state's array. -/
theorem cover15 (i : S8192x1024.Idx) : ∃ t : Fin cfg0.N, (cfg0.win 15).flush t = true ∧ i ∈ ((cfg0.win 15).blk t).view.set := by
  have hi0 : (i 0).val < 8192 := (i 0).isLt
  have hi1 : (i 1).val < 1024 := (i 1).isLt
  obtain ⟨t, -, ht⟩ := idx_onto ⟨(i 0).val / 128, by omega⟩
  have q0 : win0_15.index t (0 : Fin 2) = (i 0).val / 128 := congrFun ht 0
  have q1 : win0_15.index t (1 : Fin 2) = 0 := congrFun ht 1
  refine ⟨t, flush0_15 t, ?_⟩
  rw [mem_blk15]
  intro a
  match a with
  | ⟨0, _⟩ => show win0_15.index t (0 : Fin 2) * 128 ≤ (i 0).val ∧ (i 0).val < win0_15.index t (0 : Fin 2) * 128 + 128; omega
  | ⟨1, _⟩ => show win0_15.index t (1 : Fin 2) * 1024 ≤ (i 1).val ∧ (i 1).val < win0_15.index t (1 : Fin 2) * 1024 + 1024; omega

/-! ## The arrays after the run -/

/-- After the run the cell state's array is the new cell state of the arguments. -/
theorem final_cell (c : Dev nD) : (dats m 0 c).arrAt 16 cfg0.N = cellG m c :=
  (dats m 0 c).arrAt_eq_of_cover 16 (cellG m c) (fun t _ => flushed_cell m c t) cover16

/-- After the run the hidden state's array is the new hidden state of the arguments. -/
theorem final_hidden (c : Dev nD) : (dats m 0 c).arrAt 15 cfg0.N = hiddenG m c :=
  (dats m 0 c).arrAt_eq_of_cover 15 (hiddenG m c) (fun t _ => flushed_hidden m c t) cover15

/-- The kernel's run: it terminates with the hidden state and the cell state of the arguments in its two results and the
    arguments unchanged. -/
theorem run : θ_run defs (onTc (τ := τ) (main (F := Ideal))) ⟨m, fun _ => 0, ρ⟩ fun r => ∀ c : Dev nD,
      r.2.mem ((c : Thread nD τ).loc main_v18_0) = hiddenG m c
      ∧ r.2.mem ((c : Thread nD τ).loc main_v18_1) = cellG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final_hidden m c), (h c).2.1.trans (final_cell m c), (h c).2.2⟩)
    (Value.run_blocks m ρ)

end Cert.KernelIdeal.CellValue

end
-- ==== Proof.RefCell.lean ====
/-
  The reference program's two results, element by element, are the one-step functions of CellSpec.lean.

  The reference computes each gate as `(x·Wᵀ + b) + (h·Uᵀ + d)`: a transpose of the weight matrix, a product contracting
  the left operand's second axis with the transposed matrix's first (so `∑ₖ x[p,k]·W[q,k]`), the bias broadcast from
  `[1024]` through `[1, 1024]` to every row, and a sum. That is `actSplit`, which equals the single-bias pre-activation
  with `β = b + d` (`actSplit_eq`). Its logistic function is spelt `1 / (1 + exp(−z))` with the constant `1.0`
  broadcast from a scalar: the logistic function (`div_one_word`). The four gates are the same operations on different
  arguments, so one linear layer and one logistic function are read once and the others are instances of them.
-/
import proofs.«104652_j7112465842327_1_alg».proof.Proof.Gen.ReferenceIdeal.Read
import proofs.«104652_j7112465842327_1_alg».proof.Proof.CellSpec

noncomputable section

open scoped BigOperators

namespace Cert.ReferenceIdeal.RefValue

open Cert.ReferenceIdeal Cert.ReferenceIdeal.Read Idealize.ShloMosaic Idealize.ShloMosaic.ValueIdx Cert.LstmCell

/-! ## One linear layer -/

/-- The left operand of the product is read at the result's row and the contraction's coordinate. -/
theorem lidx_eq (p : Fin 8192) (q k : Fin 1024) : lidx_main_v1 (ix2 p q) k = ix2 p k :=
  funext fun a => Fin.ext (by match a with | ⟨0, _⟩ => rfl | ⟨1, _⟩ => rfl)
/-- The transposed weight matrix at (contraction coordinate, result column) is the matrix at (column, coordinate). -/
theorem ridx_eq (p : Fin 8192) (q k : Fin 1024) : idx_main_v0 (ridx_main_v1 (ix2 p q) k) = ix2 q k :=
  funext fun a => Fin.ext (by match a with | ⟨0, _⟩ => rfl | ⟨1, _⟩ => rfl)
/-- The bias broadcast to `[1, 1024]` and then to every row reads the bias at the result's column. -/
theorem bidx_eq (p : Fin 8192) (q : Fin 1024) : idx_main_v2 (idx_main_v3 (ix2 p q)) = ix1 q :=
  funext fun a => Fin.ext (by match a with | ⟨0, _⟩ => rfl)

/-- `x·Wᵀ + b` at row `p`, unit `q`. -/
theorem linear_at (X : (⟨S8192x1024, .f32⟩ : BufTy).Contents (Elt Ideal)) (W : (⟨S1024x1024, .f32⟩ : BufTy).Contents (Elt Ideal)) (b : (⟨S1024, .f32⟩ : BufTy).Contents (Elt Ideal)) (p : Fin 8192) (q : Fin 1024) :
    val_main_v4 (F := Ideal) X W b (ix2 p q) = rowDot X W p q + b (ix1 q) := by
  rw [val_main_v4_apply, val_main_v1_apply, val_main_v3_apply, val_main_v2_apply]
  simp only [val_main_v0_apply, lidx_eq, ridx_eq, bidx_eq]
  rfl

/-- A gate's pre-activation, each product with its own bias. -/
theorem gate_at (X H : (⟨S8192x1024, .f32⟩ : BufTy).Contents (Elt Ideal)) (W : (⟨S1024x1024, .f32⟩ : BufTy).Contents (Elt Ideal)) (b : (⟨S1024, .f32⟩ : BufTy).Contents (Elt Ideal)) (U : (⟨S1024x1024, .f32⟩ : BufTy).Contents (Elt Ideal)) (d : (⟨S1024, .f32⟩ : BufTy).Contents (Elt Ideal)) (p : Fin 8192) (q : Fin 1024) :
    val_main_v10 (F := Ideal) X H W b U d (ix2 p q) = actSplit X H W U (fun q => b (ix1 q)) (fun q => d (ix1 q)) p q := by
  rw [val_main_v10_apply, show val_main_v9 (F := Ideal) H U d = val_main_v4 (F := Ideal) H U d from rfl]
  show val_main_v4 (F := Ideal) X W b (ix2 p q) + val_main_v4 (F := Ideal) H U d (ix2 p q) = _
  rw [linear_at, linear_at]
  rfl

/-- `1 / (1 + exp(−a))` of a gate's pre-activation `a` is its logistic function. -/
theorem sigmoid_at (X H : (⟨S8192x1024, .f32⟩ : BufTy).Contents (Elt Ideal)) (W : (⟨S1024x1024, .f32⟩ : BufTy).Contents (Elt Ideal)) (b : (⟨S1024, .f32⟩ : BufTy).Contents (Elt Ideal)) (U : (⟨S1024x1024, .f32⟩ : BufTy).Contents (Elt Ideal)) (d : (⟨S1024, .f32⟩ : BufTy).Contents (Elt Ideal)) (i : S8192x1024.Idx) :
    val_main_v16 (F := Ideal) X H W b U d i = Ideal.logistic (val_main_v10 (F := Ideal) X H W b U d i) := by
  rw [val_main_v16_apply, val_main_v15_apply, val_main_cst_0_apply, val_main_v14_apply, val_main_v13_apply, val_main_cst_apply,
    val_main_v12_apply, val_main_v11_apply]
  exact div_one_word _

/-! ## The two results -/

/-- The gate with weights `W`, `U` and the sum of the two bias vectors. -/
abbrev gateOf (W : (⟨S1024x1024, .f32⟩ : BufTy).Contents (Elt Ideal)) (b : (⟨S1024, .f32⟩ : BufTy).Contents (Elt Ideal)) (U : (⟨S1024x1024, .f32⟩ : BufTy).Contents (Elt Ideal)) (d : (⟨S1024, .f32⟩ : BufTy).Contents (Elt Ideal)) : Gate := Gate.ofParts W U b d

/-- The logistic function of a gate at `(p, q)`, over the single-bias pre-activation. -/
theorem sigmoid_gate_at (X H : (⟨S8192x1024, .f32⟩ : BufTy).Contents (Elt Ideal)) (W : (⟨S1024x1024, .f32⟩ : BufTy).Contents (Elt Ideal)) (b : (⟨S1024, .f32⟩ : BufTy).Contents (Elt Ideal)) (U : (⟨S1024x1024, .f32⟩ : BufTy).Contents (Elt Ideal)) (d : (⟨S1024, .f32⟩ : BufTy).Contents (Elt Ideal)) (p : Fin 8192) (q : Fin 1024) :
    val_main_v16 (F := Ideal) X H W b U d (ix2 p q) = Ideal.logistic ((gateOf W b U d).act X H p q) := by
  rw [sigmoid_at, gate_at, actSplit_eq]

/-- THE CELL STATE the reference returns, at `(p, q)`. -/
theorem cell_at (x0 x1 x2 : (⟨S8192x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (p : Fin 8192) (q : Fin 1024) :
    val_main_v65 (F := Ideal) x0 x1 x2 x3 x4 x5 x6 x7 x8 x9 x10 x11 x12 x13 x14 (ix2 p q)
      = cellAt x0 x1 x2 (gateOf x3 x4 x5 x6) (gateOf x7 x8 x9 x10) (gateOf x11 x12 x13 x14) p q := by
  rw [val_main_v65_apply, val_main_v63_apply, val_main_v64_apply, val_main_v62_apply,
    show val_main_v33 (F := Ideal) x0 x1 x7 x8 x9 x10 = val_main_v16 (F := Ideal) x0 x1 x7 x8 x9 x10 from rfl,
    show val_main_v61 (F := Ideal) x0 x1 x11 x12 x13 x14 = val_main_v10 (F := Ideal) x0 x1 x11 x12 x13 x14 from rfl,
    sigmoid_gate_at, sigmoid_gate_at, gate_at, actSplit_eq]
  rfl

/-- THE HIDDEN STATE the reference returns, at `(p, q)`. -/
theorem hidden_at (x0 x1 x2 : (⟨S8192x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (p : Fin 8192) (q : Fin 1024) :
    val_main_v67 (F := Ideal) x0 x1 x2 x3 x4 x5 x6 x7 x8 x9 x10 x11 x12 x13 x14 x15 x16 x17 x18 (ix2 p q)
      = hiddenAt x0 x1 x2 (gateOf x3 x4 x5 x6) (gateOf x7 x8 x9 x10) (gateOf x11 x12 x13 x14) (gateOf x15 x16 x17 x18) p q := by
  rw [val_main_v67_apply, val_main_v66_apply, cell_at,
    show val_main_v50 (F := Ideal) x0 x1 x15 x16 x17 x18 = val_main_v16 (F := Ideal) x0 x1 x15 x16 x17 x18 from rfl,
    sigmoid_gate_at]
  rfl

/-- The reference's cell state is the one-step function of its arguments. -/
theorem cell_eq (x0 x1 x2 : (⟨S8192x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) :
    val_main_v65 (F := Ideal) x0 x1 x2 x3 x4 x5 x6 x7 x8 x9 x10 x11 x12 x13 x14
      = cellArr x0 x1 x2 (gateOf x3 x4 x5 x6) (gateOf x7 x8 x9 x10) (gateOf x11 x12 x13 x14) := by
  funext j
  obtain ⟨p, q, rfl⟩ : ∃ (p : Fin 8192) (q : Fin 1024), j = ix2 p q := ⟨j 0, j 1, eq_ix2 j⟩
  exact cell_at x0 x1 x2 x3 x4 x5 x6 x7 x8 x9 x10 x11 x12 x13 x14 p q

/-- The reference's hidden state is the one-step function of its arguments. -/
theorem hidden_eq (x0 x1 x2 : (⟨S8192x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal))
    (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) :
    val_main_v67 (F := Ideal) x0 x1 x2 x3 x4 x5 x6 x7 x8 x9 x10 x11 x12 x13 x14 x15 x16 x17 x18
      = hiddenArr x0 x1 x2 (gateOf x3 x4 x5 x6) (gateOf x7 x8 x9 x10) (gateOf x11 x12 x13 x14) (gateOf x15 x16 x17 x18) := by
  funext j
  obtain ⟨p, q, rfl⟩ : ∃ (p : Fin 8192) (q : Fin 1024), j = ix2 p q := ⟨j 0, j 1, eq_ix2 j⟩
  exact hidden_at x0 x1 x2 x3 x4 x5 x6 x7 x8 x9 x10 x11 x12 x13 x14 x15 x16 x17 x18 p q

end Cert.ReferenceIdeal.RefValue

end
-- ==== Proof.lean ====
/-
  One step of an LSTM cell: the fused kernel against the plain reference, over the extended reals.

  Both programs take `x`, `h`, `c` (8192 rows of 1024) and, per gate (input, forget, candidate, output), an input weight
  matrix, a recurrent weight matrix and two bias vectors, and return the new hidden state and the new cell state
      c' = σ(a_f)·c + σ(a_i)·tanh(a_g),     h' = σ(a_o)·tanh(c'),
  with a gate's pre-activation `a[p,q] = ∑ₖ x[p,k]·W[q,k] + ∑ₖ h[p,k]·U[q,k] + b[q] + d[q]`.
  The kernel casts `x`, `h` and the weights to bf16 (the identity on extended reals), adds the two bias vectors of a gate
  once on the host, and computes 128 rows per grid point, adding the summed bias after both products; the reference
  adds each bias to its own product first. The two groupings of the four terms agree because addition of extended reals
  is commutative and associative — no finiteness of the inputs is used. The kernel's logistic function is one operation,
  the reference's is `1 / (1 + exp(−a))`: the same function of an extended real by its definition.
  Proof/CellSpec.lean states the one-step functions and the regrouping; Proof/Payload.lean reads what the kernel body
  stores at an element of a block; Proof/KernelArrays.lean carries that from blocks to the whole result arrays and
  re-states the kernel's run; Proof/RefCell.lean reads the reference's two results. The three frame claims are the
  generated frame runs; the ideal pass rewrote nothing, so `preserves` has no conjunct.
-/
import proofs.«104652_j7112465842327_1_alg».proof.Defs
import proofs.«104652_j7112465842327_1_alg».proof.Proof.Gen.Kernel
import proofs.«104652_j7112465842327_1_alg».proof.Proof.Gen.Kernel.Skeleton
import proofs.«104652_j7112465842327_1_alg».proof.Proof.Gen.Kernel.Launch
import proofs.«104652_j7112465842327_1_alg».proof.Proof.Gen.Kernel.Points
import proofs.«104652_j7112465842327_1_alg».proof.Proof.Gen.Kernel.Frame
import proofs.«104652_j7112465842327_1_alg».proof.Proof.Gen.KernelIdeal
import proofs.«104652_j7112465842327_1_alg».proof.Proof.Gen.KernelIdeal.Skeleton
import proofs.«104652_j7112465842327_1_alg».proof.Proof.Gen.KernelIdeal.Launch
import proofs.«104652_j7112465842327_1_alg».proof.Proof.Gen.KernelIdeal.Points
import proofs.«104652_j7112465842327_1_alg».proof.Proof.Gen.KernelIdeal.Frame
import proofs.«104652_j7112465842327_1_alg».proof.Proof.Gen.ReferenceIdeal
import proofs.«104652_j7112465842327_1_alg».proof.Proof.Gen.Pre_finite_inputs
import proofs.«104652_j7112465842327_1_alg».proof.Proof.Gen.KernelIdeal.Value
import proofs.«104652_j7112465842327_1_alg».proof.Proof.Gen.ReferenceIdeal.Run
import proofs.«104652_j7112465842327_1_alg».proof.Proof.Gen.ReferenceIdeal.Read
import proofs.«104652_j7112465842327_1_alg».proof.Proof.KernelArrays
import proofs.«104652_j7112465842327_1_alg».proof.Proof.RefCell
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the nineteen arguments both programs end with the new hidden state and the new cell state
    of those arguments: the kernel by its run over the blocks, the reference by its run read element by element, the gate
    pre-activations regrouped. -/
theorem algebraic : Cert.algebraic_KernelIdeal_ReferenceIdeal := by
  intro m ρ m' ρ' _ hagree
  refine ⟨fun c => Cert.KernelIdeal.CellValue.hiddenG m c, fun c => Cert.KernelIdeal.CellValue.cellG m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [Cert.ReferenceIdeal.Read.val_main_v67_eq, Cert.ReferenceIdeal.RefValue.hidden_eq, a0, a1, a2, a3, a4, a5, a6, a7, a8, a9, a10, a11, a12, a13, a14, a15, a16, a17, a18]
    rfl
  · obtain ⟨a0, a1, a2, a3, a4, a5, a6, a7, a8, a9, a10, a11, a12, a13, a14, a15, a16, a17, a18⟩ := hagree c
    rw [Cert.ReferenceIdeal.Read.val_main_v65_eq, Cert.ReferenceIdeal.RefValue.cell_eq, a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
